-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : FVec F S256x256 .f32) (main_arg3 : FVec F S256 .f32) (main_arg4 : FVec F S256x128 .f32) (main_arg5 : FVec F S128 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S50000x128 : Shape := ⟨2, ![50000, 128]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000 : Shape := ⟨1, ![50000]⟩
abbrev S50000x1 : Shape := ⟨2, ![50000, 1]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩

abbrev nBuf : Space → Nat
  | .hbm => 37
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.MlpSpec.lean ====
import Idealize.ShloMosaic.PureOps.Ideal
import Idealize.ShloMosaic.Lib.ValueIdx

/-!
  The two-layer perceptron on a node's features joined with its aggregated neighbour features, as one function
  of its six arrays, entry by entry, on the extended reals.

  For a row `p` the layer input is the 256-vector whose first 128 entries are row `p` of the node features `a`
  and whose last 128 entries are row `p` of the aggregate `b`. The hidden unit `k` is
  `max (∑ j, input p j · W₁ (j, k) + b₁ k) 0`, and the output entry `(p, q)` is `∑ k, hidden p k · W₂ (k, q) + b₂ q`.

  The number of rows `R` is a parameter: the same definitions are read with the 50000 rows of the whole arrays and
  with the 2000 rows of one row block, and a row block of the function of the whole arrays is the function of the
  row blocks (`mlpAt_rows`), because every output row depends on its own input row only.

  The zero of the rectifier is kept as the float pattern of `0.0`; it is never evaluated.
-/

open scoped BigOperators

noncomputable section

namespace Cert.Mlp

open Idealize.ShloMosaic Idealize.ShloMosaic.ValueIdx

/-- The rectifier's threshold: the float `0.0` read at the ideal values. -/
abbrev zeroF : EReal := Ideal.ofBits .f32 0x00000000#32

variable {R : Nat}

/-- Entry `j` of the layer input of row `p`: columns below 128 come from `a`, the others from `b`. -/
def joined (a b : (⟨2, ![R, 128]⟩ : Shape).Idx → EReal) (p : Fin R) (j : Fin 256) : EReal :=
  if h : j.val < 128 then a (ix2 p ⟨j.val, h⟩) else b (ix2 p ⟨j.val - 128, by have := j.isLt; omega⟩)

/-- Hidden unit `k` of row `p`. -/
def hiddenAt (a b : (⟨2, ![R, 128]⟩ : Shape).Idx → EReal) (W1 : (⟨2, ![256, 256]⟩ : Shape).Idx → EReal)
    (b1 : (⟨1, ![256]⟩ : Shape).Idx → EReal) (p : Fin R) (k : Fin 256) : EReal :=
  max ((∑ j : Fin 256, joined a b p j * W1 (ix2 j k)) + b1 (ix1 k)) zeroF

/-- Output entry `(p, q)`. -/
def mlpAt (a b : (⟨2, ![R, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (p : Fin R) (q : Fin 128) : EReal :=
  (∑ k : Fin 256, hiddenAt a b W1 b1 p k * W2 (ix2 k q)) + b2 (ix1 q)

/-- The output array. -/
def mlp (a b : (⟨2, ![R, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![R, 128]⟩ : Shape).Idx → EReal :=
  fun i => mlpAt a b W1 b1 W2 b2 (i 0) (i 1)

theorem mlp_ix2 (a b : (⟨2, ![R, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (p : Fin R) (q : Fin 128) :
    mlp a b W1 b1 W2 b2 (ix2 p q) = mlpAt a b W1 b1 W2 b2 p q := rfl

/-! ## A row block of the whole is the function of the row blocks -/

variable {R' : Nat}

/-- If row `p'` of the small arrays is row `p` of the large ones, the layer inputs of the two rows agree. -/
theorem joined_rows (a b : (⟨2, ![R, 128]⟩ : Shape).Idx → EReal) (a' b' : (⟨2, ![R', 128]⟩ : Shape).Idx → EReal)
    (p : Fin R) (p' : Fin R') (ha : ∀ c : Fin 128, a' (ix2 p' c) = a (ix2 p c))
    (hb : ∀ c : Fin 128, b' (ix2 p' c) = b (ix2 p c)) (j : Fin 256) : joined a' b' p' j = joined a b p j := by
  unfold joined
  split
  · exact ha _
  · exact hb _

/-- So do the output rows. -/
theorem mlpAt_rows (a b : (⟨2, ![R, 128]⟩ : Shape).Idx → EReal) (a' b' : (⟨2, ![R', 128]⟩ : Shape).Idx → EReal)
    (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (p : Fin R) (p' : Fin R') (ha : ∀ c : Fin 128, a' (ix2 p' c) = a (ix2 p c))
    (hb : ∀ c : Fin 128, b' (ix2 p' c) = b (ix2 p c)) (q : Fin 128) :
    mlpAt a' b' W1 b1 W2 b2 p' q = mlpAt a b W1 b1 W2 b2 p q := by
  unfold mlpAt hiddenAt
  simp only [joined_rows a b a' b' p p' ha hb]

/-- The same for the arrays read at an index: an entry of the function of the small arrays is the entry of the function
    of the large arrays in the matching row and the same column, when the parameters are the same. -/
theorem mlp_rows (a b : (⟨2, ![R, 128]⟩ : Shape).Idx → EReal) (a' b' : (⟨2, ![R', 128]⟩ : Shape).Idx → EReal)
    (W1 W1' : (⟨2, ![256, 256]⟩ : Shape).Idx → EReal) (b1 b1' : (⟨1, ![256]⟩ : Shape).Idx → EReal)
    (W2 W2' : (⟨2, ![256, 128]⟩ : Shape).Idx → EReal) (b2 b2' : (⟨1, ![128]⟩ : Shape).Idx → EReal)
    (hW1 : W1' = W1) (hb1 : b1' = b1) (hW2 : W2' = W2) (hb2 : b2' = b2)
    (i : (⟨2, ![R, 128]⟩ : Shape).Idx) (i' : (⟨2, ![R', 128]⟩ : Shape).Idx) (hq : (i' 1).val = (i 1).val)
    (ha : ∀ c : Fin 128, a' (ix2 (i' 0) c) = a (ix2 (i 0) c))
    (hb : ∀ c : Fin 128, b' (ix2 (i' 0) c) = b (ix2 (i 0) c)) :
    mlp a' b' W1' b1' W2' b2' i' = mlp a b W1 b1 W2 b2 i := by
  subst hW1 hb1 hW2 hb2
  unfold mlp
  have e : i' 1 = i 1 := Fin.ext hq
  rw [e]
  exact mlpAt_rows a b a' b' W1' b1' W2' b2' (i 0) (i' 0) ha hb (i 1)

end Cert.Mlp

end
-- ==== Proof.MlpLayout.lean ====
import Idealize.ShloMosaic.Lib.Pipeline.Value
import Idealize.ShloMosaic.Lib.ValueLayout
import proofs.«145151_j6665789243398_1_alg».proof.Proof.MlpSpec

/-!
  The layer input as both programs spell it: two [R, 128] arrays joined along the columns into one [R, 256] array.
  Read at entry `(p, j)` the joined array is `Cert.Mlp.joined`: the left array's column `j` when `j < 128`, the right
  array's column `j - 128` otherwise. Also a bias vector laid out as one row and repeated down the rows, read at an
  entry: the vector's entry at the column.
-/

noncomputable section

namespace Cert.Mlp

open Idealize.ShloMosaic Idealize.ShloMosaic.ValueIdx

/-- Two [R, 128] arrays joined along axis 1, read at `(p, j)`. -/
theorem concatenate_cols {R : Nat} (a b : (⟨2, ![R, 128]⟩ : Shape).Idx → EReal)
    (h : Shape.Concatenates [(⟨2, ![R, 128]⟩ : Shape), (⟨2, ![R, 128]⟩ : Shape)] (⟨2, ![R, 256]⟩ : Shape) 1)
    (p : Fin R) (j : Fin 256) :
    concatenate (⟨2, ![R, 256]⟩ : Shape) 1 [⟨(⟨2, ![R, 128]⟩ : Shape), a⟩, ⟨(⟨2, ![R, 128]⟩ : Shape), b⟩] h (ix2 p j)
      = joined a b p j := by
  unfold joined
  split
  · rename_i hj
    refine concatenate_pair_apply_left (1 : Fin 2) a b h (ix2 p j) rfl (ix2 p ⟨j.val, hj⟩) fun ax => ?_
    match ax with
    | ⟨0, _⟩ => rfl
    | ⟨1, _⟩ => rfl
  · rename_i hj
    refine concatenate_pair_apply_right (1 : Fin 2) a b h (ix2 p j) rfl rfl
      (ix2 p ⟨j.val - 128, by have := j.isLt; omega⟩) (fun ax hne => ?_) ?_
    · match ax with
      | ⟨0, _⟩ => rfl
      | ⟨1, _⟩ => exact absurd rfl hne
    · show j.val - 128 + 128 = j.val
      omega

/-- A vector cast to one row and repeated down `R` rows, read at `(p, k)`, is the vector's entry `k`. -/
theorem row_bias_apply {R n : Nat} (v : (⟨1, ![n]⟩ : Shape).Idx → EReal)
    (hc : (⟨1, ![n]⟩ : Shape).ShapeCasts ⟨2, ![1, n]⟩) (hb : (⟨2, ![1, n]⟩ : Shape).Broadcasts ⟨2, ![R, n]⟩)
    (p : Fin R) (k : Fin n) :
    broadcastTo (⟨2, ![R, n]⟩ : Shape) (shapeCast (⟨2, ![1, n]⟩ : Shape) v hc) hb (ix2 p k) = v (ix1 k) := by
  rw [broadcastTo_1b_ab_apply, shapeCast_a_1a_apply]

end Cert.Mlp

end
-- ==== Proof.KernelBlock.lean ====
import proofs.«145151_j6665789243398_1_alg».proof.Proof.Gen.KernelIdeal.Skeleton
import proofs.«145151_j6665789243398_1_alg».proof.Proof.LibPlainDot
import proofs.«145151_j6665789243398_1_alg».proof.Proof.MlpLayout
import Idealize.ShloMosaic.PureOps.Ideal.Laws

/-!
  What the kernel body stores for one row block: at the ideal values the stored [2000, 128] block is the perceptron
  of the six blocks the body loads. The two narrowings to bf16 are the identity on the extended reals, each matrix
  product into the zero accumulator is the plain sum over the contracted coordinate, each bias is the vector's entry at
  the column, and the rectifier is the maximum with the float zero.
-/

open scoped BigOperators

noncomputable section

namespace Cert.KernelIdeal.Block

open Cert.KernelIdeal Cert.KernelIdeal.Gen Idealize.ShloMosaic Idealize.ShloMosaic.ValueIdx Cert.Mlp

/-- The layer input the body builds, read at `(r, j)`: the block of node features joined with the block of the
    aggregate (its cast to its own shape is the identity). -/
theorem input_apply (v0 v1 : Vec Ideal S2000x128 .f32) (r : Fin 2000) (j : Fin 256) :
    concatenate S2000x256 1 [⟨S2000x128, v0⟩, ⟨S2000x128, shapeCast S2000x128 v1 shapeCasts_S2000x128_S2000x128⟩]
      concatenates_S2000x128_S2000x128_S2000x256_d1 (ix2 r j) = joined v0 v1 r j :=
  (congrArg (fun b => concatenate S2000x256 1 [⟨S2000x128, v0⟩, ⟨S2000x128, b⟩]
      concatenates_S2000x128_S2000x128_S2000x256_d1 (ix2 r j)) (shapeCast_self v1 shapeCasts_S2000x128_S2000x128)).trans
    (concatenate_cols v0 v1 concatenates_S2000x128_S2000x128_S2000x256_d1 r j)

/-- The rectified hidden activations the body computes, read at `(r, k)`. -/
theorem hidden_apply (v0 v1 : Vec Ideal S2000x128 .f32) (v5 : Vec Ideal S256x256 .f32) (v8 : Vec Ideal S256 .f32)
    (r : Fin 2000) (k : Fin 256) :
    max ((matmul dot_S2000x256_S256x256_S2000x256_1_0_0_1_n_n none
        (truncf .bf16 (concatenate S2000x256 1 [⟨S2000x128, v0⟩, ⟨S2000x128, shapeCast S2000x128 v1 shapeCasts_S2000x128_S2000x128⟩] concatenates_S2000x128_S2000x128_S2000x256_d1) bitsLt_bf16_f32)
        (truncf .bf16 v5 bitsLt_bf16_f32) (constant (F := Ideal) S2000x256 .f32 0x00000000#32)) (ix2 r k)
        + (broadcastTo S2000x256 (shapeCast S1x256 v8 shapeCasts_S256_S1x256) broadcasts_S1x256_S2000x256) (ix2 r k))
      zeroF
    = hiddenAt v0 v1 v5 v8 r k := by
  unfold hiddenAt
  refine congrArg (max · zeroF) (congrArg₂ (· + ·)
    ((Cert.Lib.PlainDot.matmul_zero_apply dot_S2000x256_S256x256_S2000x256_1_0_0_1_n_n rfl rfl rfl rfl rfl rfl none _ _ r k).trans ?_)
    (row_bias_apply v8 shapeCasts_S256_S1x256 broadcasts_S1x256_S2000x256 r k))
  refine Finset.sum_congr rfl fun j _ => ?_
  exact congrArg (· * v5 (ix2 j k)) (input_apply v0 v1 r j)

/-- The stored block, read at `(r, q)`. -/
theorem pay_apply (v0 v1 : Vec Ideal S2000x128 .f32) (v5 : Vec Ideal S256x256 .f32) (v8 : Vec Ideal S256 .f32)
    (v15 : Vec Ideal S256x128 .f32) (v18 : Vec Ideal S128 .f32) (r : Fin 2000) (q : Fin 128) :
    k0_pay1 v0 v1 v5 v8 v15 v18 (ix2 r q) = mlpAt v0 v1 v5 v8 v15 v18 r q := by
  unfold k0_pay1 mlpAt
  show (matmul dot_S2000x256_S256x128_S2000x128_1_0_0_1_n_n none _ _ (constant (F := Ideal) S2000x128 .f32 0x00000000#32)) (ix2 r q) + _ = _
  refine congrArg₂ (· + ·)
    ((Cert.Lib.PlainDot.matmul_zero_apply dot_S2000x256_S256x128_S2000x128_1_0_0_1_n_n rfl rfl rfl rfl rfl rfl none _ _ r q).trans ?_)
    (row_bias_apply v18 shapeCasts_S128_S1x128 broadcasts_S1x128_S2000x128 r q)
  refine Finset.sum_congr rfl fun k _ => ?_
  exact congrArg (· * v15 (ix2 k q)) (hidden_apply v0 v1 v5 v8 r k)

/-- The stored block is the perceptron of the loaded blocks. -/
theorem pay_eq (v0 v1 : Vec Ideal S2000x128 .f32) (v5 : Vec Ideal S256x256 .f32) (v8 : Vec Ideal S256 .f32)
    (v15 : Vec Ideal S256x128 .f32) (v18 : Vec Ideal S128 .f32) :
    k0_pay1 v0 v1 v5 v8 v15 v18 = mlp v0 v1 v5 v8 v15 v18 := by
  funext i
  obtain ⟨r, q, rfl⟩ : ∃ (r : Fin 2000) (q : Fin 128), i = ix2 r q := ⟨i 0, i 1, eq_ix2 i⟩
  exact pay_apply v0 v1 v5 v8 v15 v18 r q

end Cert.KernelIdeal.Block

end
-- ==== Proof.KernelArray.lean ====
import proofs.«145151_j6665789243398_1_alg».proof.Proof.Gen.KernelIdeal.Value
import proofs.«145151_j6665789243398_1_alg».proof.Proof.KernelBlock
import Idealize.ShloMosaic.Lib.Pipeline.Value
import Idealize.ShloMosaic.Lib.Tactic

/-!
  The kernel's result array after the run, at the ideal values: the perceptron of the six arrays the region finds —
  the node features, the aggregate the host prefix wrote, and the four parameter arrays.

  Grid point `t` (of 25) works on rows `2000 t … 2000 t + 1999`: its blocks of the node features and of the aggregate
  are those rows, its blocks of the parameters are the whole parameter arrays, and it writes back those rows of the
  result. Every output row depends on its own input row only, so the block it writes is that row block of the
  perceptron of the whole arrays; the 25 row blocks cover the 50000 rows.
-/

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.Mlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer is the perceptron of the six staged blocks: each load reads its
    whole buffer, and the one store writes the whole buffer. -/
theorem out_eq (x0 x1 : Vec Ideal S2000x128 .f32) (x2 : Vec Ideal S256x256 .f32) (x3 : Vec Ideal S256 .f32)
    (x4 : Vec Ideal S256x128 .f32) (x5 : Vec Ideal S128 .f32) :
    out0_6 x0 x1 x2 x3 x4 x5 = mlp x0 x1 x2 x3 x4 x5 := by
  unfold out0_6
  rw [View.canon_unit_zero hz2]
  simp only [View.ld_unit_zero (S := S2000x128) hz2, View.ld_unit_zero (S := S256x256) hz2,
    View.ld_unit_zero (S := S256) hz1, View.ld_unit_zero (S := S256x128) hz2, View.ld_unit_zero (S := S128) hz1]
  exact Cert.KernelIdeal.Block.pay_eq x0 x1 x2 x3 x4 x5

/-- The printed index maps over the grid: the three row-blocked windows are at block row `t`, the parameter windows
    at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The node-feature block at point `t` is rows `2000 t …` of the node features. -/
theorem blk_nh (c : Dev nD) (t : Fin cfg0.N) (x : S2000x128.Idx) (k : S50000x128.Idx)
    (hk0 : (k 0).val = 2000 * t.val + (x 0).val) (hk1 : (k 1).val = (x 1).val) :
    (iblk m c 0 t : Vec Ideal S2000x128 .f32) x = (V m c main_arg0 : S50000x128.Idx → Elt Ideal .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The aggregate block at point `t` is rows `2000 t …` of the aggregate. -/
theorem blk_agg (c : Dev nD) (t : Fin cfg0.N) (x : S2000x128.Idx) (k : S50000x128.Idx)
    (hk0 : (k 0).val = 2000 * t.val + (x 0).val) (hk1 : (k 1).val = (x 1).val) :
    (iblk m c 1 t : Vec Ideal S2000x128 .f32) x = (V m c main_v22 : S50000x128.Idx → Elt Ideal .f32) k := by
  obtain ⟨-, -, e0, e1, -⟩ := idx_facts t
  unfold iblk
  rw [View.read_apply]
  show V m c main_v22 _ = V m c main_v22 _
  congr 1
  funext a
  apply Fin.ext
  match a with
  | ⟨0, _⟩ => show win0_1.index t 0 * 2000 + 1 * (x 0).val = (k 0).val; rw [e0, hk0]; omega
  | ⟨1, _⟩ => show win0_1.index t 1 * 128 + 1 * (x 1).val = (k 1).val; rw [e1, hk1]; omega

/-- Each parameter window's block is its whole array, at every point. -/
theorem blk_w1 (c : Dev nD) (t : Fin cfg0.N) :
    (iblk m c 2 t : Vec Ideal S256x256 .f32) = (V m c main_arg2 : S256x256.Idx → Elt Ideal .f32) := by
  obtain ⟨-, -, -, -, e0, e1, -⟩ := idx_facts t
  funext x
  unfold iblk
  rw [View.read_apply]
  show V m c main_arg2 _ = V m c main_arg2 _
  congr 1
  funext a
  apply Fin.ext
  match a with
  | ⟨0, _⟩ => show win0_2.index t 0 * 256 + 1 * (x 0).val = (x 0).val; rw [e0]; omega
  | ⟨1, _⟩ => show win0_2.index t 1 * 256 + 1 * (x 1).val = (x 1).val; rw [e1]; omega

theorem blk_b1 (c : Dev nD) (t : Fin cfg0.N) :
    (iblk m c 3 t : Vec Ideal S256 .f32) = (V m c main_arg3 : S256.Idx → Elt Ideal .f32) := by
  obtain ⟨-, -, -, -, -, -, e0, -⟩ := idx_facts t
  funext x
  unfold iblk
  rw [View.read_apply]
  show V m c main_arg3 _ = V m c main_arg3 _
  congr 1
  funext a
  apply Fin.ext
  match a with
  | ⟨0, _⟩ => show win0_3.index t 0 * 256 + 1 * (x 0).val = (x 0).val; rw [e0]; omega

theorem blk_w2 (c : Dev nD) (t : Fin cfg0.N) :
    (iblk m c 4 t : Vec Ideal S256x128 .f32) = (V m c main_arg4 : S256x128.Idx → Elt Ideal .f32) := by
  obtain ⟨-, -, -, -, -, -, -, e0, e1, -⟩ := idx_facts t
  funext x
  unfold iblk
  rw [View.read_apply]
  show V m c main_arg4 _ = V m c main_arg4 _
  congr 1
  funext a
  apply Fin.ext
  match a with
  | ⟨0, _⟩ => show win0_4.index t 0 * 256 + 1 * (x 0).val = (x 0).val; rw [e0]; omega
  | ⟨1, _⟩ => show win0_4.index t 1 * 128 + 1 * (x 1).val = (x 1).val; rw [e1]; omega

theorem blk_b2 (c : Dev nD) (t : Fin cfg0.N) :
    (iblk m c 5 t : Vec Ideal S128 .f32) = (V m c main_arg5 : S128.Idx → Elt Ideal .f32) := by
  obtain ⟨-, -, -, -, -, -, -, -, -, e0, -⟩ := idx_facts t
  funext x
  unfold iblk
  rw [View.read_apply]
  show V m c main_arg5 _ = V m c main_arg5 _
  congr 1
  funext a
  apply Fin.ext
  match a with
  | ⟨0, _⟩ => show win0_5.index t 0 * 128 + 1 * (x 0).val = (x 0).val; rw [e0]; omega

/-- The perceptron of the arrays as the region finds them. -/
abbrev whole (c : Dev nD) : S50000x128.Idx → EReal :=
  mlp (V m c main_arg0 : S50000x128.Idx → EReal) (V m c main_v22 : S50000x128.Idx → EReal)
    (V m c main_arg2 : S256x256.Idx → EReal) (V m c main_arg3 : S256.Idx → EReal)
    (V m c main_arg4 : S256x128.Idx → EReal) (V m c main_arg5 : S128.Idx → EReal)

/-- What point `t` writes back is its row block of the perceptron of the whole arrays. -/
theorem flushed_eq (c : Dev nD) (t : Fin cfg0.N) :
    (dats m 0 c).flushed 6 t = ((cfg0.win 6).blk t).view.read (Elt Ideal) (whole m c) := by
  refine (Value.flushed6 m c t).trans ?_
  refine (congrArg ((cfg0.win 6).cut (grid0.coords t))
    (out_eq (iblk m c 0 t) (iblk m c 1 t) (iblk m c 2 t) (iblk m c 3 t) (iblk m c 4 t) (iblk m c 5 t))).trans ?_
  obtain ⟨-, -, -, -, -, -, -, -, -, -, e0, e1⟩ := idx_facts t
  funext j
  show mlp (iblk m c 0 t : Vec Ideal S2000x128 .f32) (iblk m c 1 t : Vec Ideal S2000x128 .f32)
      (iblk m c 2 t : Vec Ideal S256x256 .f32) (iblk m c 3 t : Vec Ideal S256 .f32)
      (iblk m c 4 t : Vec Ideal S256x128 .f32) (iblk m c 5 t : Vec Ideal S128 .f32) j
    = whole m c (((cfg0.win 6).blk t).view.emb j)
  have h0 : ((((cfg0.win 6).blk t).view.emb j) 0).val = 2000 * t.val + (j 0).val := by
    show win0_6.index t 0 * 2000 + 1 * (j 0).val = _; rw [e0]; omega
  have h1 : ((((cfg0.win 6).blk t).view.emb j) 1).val = (j 1).val := by
    show win0_6.index t 1 * 128 + 1 * (j 1).val = _; rw [e1]; omega
  refine mlp_rows _ _ _ _ _ _ _ _ _ _ _ _ (blk_w1 m c t) (blk_b1 m c t) (blk_w2 m c t) (blk_b2 m c t)
    (((cfg0.win 6).blk t).view.emb j) j h1.symm (fun q => ?_) (fun q => ?_)
  · exact blk_nh m c t _ _ h0 rfl
  · exact blk_agg m c t _ _ h0 rfl

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v23).slice (win0_6.rect t)).set ↔ _
  rw [View.set_slice_whole, Rect.mem_set_unit]
  exact Iff.rfl

/-- Row `p` lies in the block of point `p / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, -, -, -, -, -, -, e0, e1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 128 ≤ (i 1).val ∧ (i 1).val < win0_6.index t (1 : Fin 2) * 128 + 128; rw [e1]; omega

/-- The result array after the run is the perceptron of the arrays as the region finds them. -/
theorem final (c : Dev nD) : (dats m 0 c).arrAt 6 cfg0.N = whole m c :=
  (dats m 0 c).arrAt_eq_of_cover 6 (whole m c) (fun t _ => flushed_eq m c t) cover

end Cert.KernelIdeal.Whole

end
-- ==== Proof.HostAgg.lean ====
import proofs.«145151_j6665789243398_1_alg».proof.Proof.Gen.KernelIdeal.Frame
import proofs.«145151_j6665789243398_1_alg».proof.Proof.Gen.ReferenceIdeal.Read
import Idealize.ShloMosaic.Lib.StableHlo.Run

/-!
  The aggregate the kernel's host prefix leaves for the region is the reference's aggregate: the 28 host operations
  in front of the kernel call are, operation by operation, the first 28 of the reference — both gather the source
  rows, add them up per destination, count the edges per destination, and divide by the count raised to at least
  one — so the array the region finds is the reference's stage `%22` of the same two arguments. Nothing here opens
  the gather, the scatters or the quotient: the two texts are one term.
-/

noncomputable section

open Idealize.ShloMosaic Idealize.ShloMosaic.TcCoe Idealize.SL.Sem

namespace Cert.KernelIdeal.HostAgg

open Cert.KernelIdeal Cert.KernelIdeal.Gen

variable (m : (ℓ : Loc nD τ sig) → Buf (Elt Ideal) ℓ)

theorem agg_eq (c : Dev nD) :
    V m c main_v22
      = Cert.ReferenceIdeal.Read.val_main_v22 (F := Ideal) (m ((c : Thread nD τ).loc main_arg0)) (m ((c : Thread nD τ).loc main_arg6)) := by
  unfold V
  after_results_simp <;> rfl

end Cert.KernelIdeal.HostAgg

end
-- ==== Proof.RefIsMlp.lean ====
import proofs.«145151_j6665789243398_1_alg».proof.Proof.Gen.ReferenceIdeal.Read
import proofs.«145151_j6665789243398_1_alg».proof.Proof.MlpLayout

/-!
  The reference's result at the ideal values is the perceptron of the node features, the aggregate the reference's
  own prefix computes (its stage `%22`, kept whole: nothing here opens the gather, the two scatters or the
  quotient), and the four parameter arrays.

  Read at entry `(p, q)`: the last addition is the second matrix product plus the second bias; the matrix product is
  the sum over `k` of the rectified hidden unit `(p, k)` times `W₂ (k, q)`; the hidden unit is the maximum with zero of
  the first matrix product plus the first bias; and the first matrix product's left operand is the two arrays joined
  along the columns.
-/

open scoped BigOperators

noncomputable section

namespace Cert.ReferenceIdeal.RefValue

open Cert.ReferenceIdeal Cert.ReferenceIdeal.Gen Cert.ReferenceIdeal.Read Idealize.ShloMosaic Idealize.ShloMosaic.ValueIdx Cert.Mlp

/-! ### The printed index maps at an entry written by its coordinates -/

theorem lidx_v29 (p : Fin 50000) (q : Fin 128) (k : Fin 256) : lidx_main_v29 (ix2 p q) k = ix2 p k :=
  funext fun a => Fin.ext (by match a with | ⟨0, _⟩ => rfl | ⟨1, _⟩ => rfl)
theorem ridx_v29 (p : Fin 50000) (q : Fin 128) (k : Fin 256) : ridx_main_v29 (ix2 p q) k = ix2 k q :=
  funext fun a => Fin.ext (by match a with | ⟨0, _⟩ => rfl | ⟨1, _⟩ => rfl)
theorem lidx_v24 (p : Fin 50000) (k j : Fin 256) : lidx_main_v24 (ix2 p k) j = ix2 p j :=
  funext fun a => Fin.ext (by match a with | ⟨0, _⟩ => rfl | ⟨1, _⟩ => rfl)
theorem ridx_v24 (p : Fin 50000) (k j : Fin 256) : ridx_main_v24 (ix2 p k) j = ix2 j k :=
  funext fun a => Fin.ext (by match a with | ⟨0, _⟩ => rfl | ⟨1, _⟩ => rfl)
theorem idx_bias2 (p : Fin 50000) (q : Fin 128) : idx_main_v30 (idx_main_v31 (ix2 p q)) = ix1 q :=
  funext fun a => Fin.ext (by match a with | ⟨0, _⟩ => rfl)
theorem idx_bias1 (p : Fin 50000) (k : Fin 256) : idx_main_v25 (idx_main_v26 (ix2 p k)) = ix1 k :=
  funext fun a => Fin.ext (by match a with | ⟨0, _⟩ => rfl)

/-- The reference's rectified hidden layer at `(p, k)`. -/
theorem hidden_apply (x0 : (⟨S50000x128, .f32⟩ : BufTy).Contents (Elt Ideal)) (x2 : (⟨S256x256, .f32⟩ : BufTy).Contents (Elt Ideal))
    (x3 : (⟨S256, .f32⟩ : BufTy).Contents (Elt Ideal)) (x6 : (⟨S2x600000, .i32⟩ : BufTy).Contents (Elt Ideal))
    (p : Fin 50000) (k : Fin 256) :
    val_main_v28 (F := Ideal) x0 x2 x3 x6 (ix2 p k) = hiddenAt x0 (val_main_v22 (F := Ideal) x0 x6) x2 x3 p k := by
  rw [val_main_v28_apply, val_main_v27_apply, val_main_v24_apply, val_main_v26_apply, val_main_v25_apply,
    val_main_call0_v0_apply, val_main_call0_cst_apply, idx_bias1]
  unfold hiddenAt
  simp only [lidx_v24, ridx_v24]
  have hc : ∀ j : Fin 256, val_main_v23 (F := Ideal) x0 x6 (ix2 p j) = joined x0 (val_main_v22 (F := Ideal) x0 x6) p j :=
    fun j => concatenate_cols x0 (val_main_v22 (F := Ideal) x0 x6) concatenates_S50000x128_S50000x128_S50000x256_d1 p j
  simp only [hc]
  rfl

/-- The reference's result at `(p, q)`. -/
theorem result_apply (x0 : (⟨S50000x128, .f32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (x6 : (⟨S2x600000, .i32⟩ : BufTy).Contents (Elt Ideal))
    (p : Fin 50000) (q : Fin 128) :
    val_main_v32 (F := Ideal) x0 x2 x3 x4 x5 x6 (ix2 p q)
      = mlpAt x0 (val_main_v22 (F := Ideal) x0 x6) x2 x3 x4 x5 p q := by
  rw [val_main_v32_apply, val_main_v29_apply, val_main_v31_apply, val_main_v30_apply, idx_bias2]
  unfold mlpAt
  simp only [lidx_v29, ridx_v29, hidden_apply]
  rfl

/-- The reference's result is the perceptron of the node features, the reference's aggregate and the parameters. -/
theorem result_eq (x0 : (⟨S50000x128, .f32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (x6 : (⟨S2x600000, .i32⟩ : BufTy).Contents (Elt Ideal)) :
    val_main_v32 (F := Ideal) x0 x2 x3 x4 x5 x6 = mlp x0 (val_main_v22 (F := Ideal) x0 x6) x2 x3 x4 x5 := by
  funext i
  obtain ⟨p, q, rfl⟩ : ∃ (p : Fin 50000) (q : Fin 128), i = ix2 p q := ⟨i 0, i 1, eq_ix2 i⟩
  exact result_apply x0 x2 x3 x4 x5 x6 p q

end Cert.ReferenceIdeal.RefValue

end
-- ==== Proof.lean ====
/-
  A graph layer's node update: for every node, the mean of the features of the nodes with an edge into it (a gather
  of source rows, a sum per destination, a count per destination, the quotient by the count raised to at least one),
  joined with the node's own features and passed through a two-layer perceptron
  `relu (x · W₁ + b₁) · W₂ + b₂`; the edge features are returned as they came.

  The kernel computes the mean on the host exactly as the reference does — the same 28 operations in the same order —
  and runs the perceptron in one kernel over 25 row blocks of 2000 nodes, with the operands of its two matrix
  products narrowed to bf16. On the extended reals the narrowing is the identity and a matrix product into a zero
  accumulator is the plain sum over the contracted coordinate, so each row block the kernel writes is that row block
  of the reference's perceptron, and the blocks cover all 50000 rows. No law beyond the two sides' common formula is
  used: the sums are over the same index set in both, the rectifier and the biases are entry by entry the same, so
  the precondition is never opened.

  Modules: `MlpSpec` states the perceptron as one function of its six arrays, for any number of rows, and that a
  row block of it depends on that row block only; `MlpLayout` reads the joined layer input and a repeated bias at an
  entry; `LibPlainDot` reads a plain matrix product at an entry; `KernelBlock` shows the block the kernel body stores
  is the perceptron of the loaded blocks; `KernelArray` assembles the 25 blocks into the whole result;
  `HostAgg` identifies the aggregate the region finds with the reference's; `RefIsMlp` shows the reference's result
  is the same perceptron.
-/
import proofs.«145151_j6665789243398_1_alg».proof.Defs
import proofs.«145151_j6665789243398_1_alg».proof.Proof.Gen.Kernel
import proofs.«145151_j6665789243398_1_alg».proof.Proof.Gen.Kernel.Skeleton
import proofs.«145151_j6665789243398_1_alg».proof.Proof.Gen.Kernel.Launch
import proofs.«145151_j6665789243398_1_alg».proof.Proof.Gen.Kernel.Points
import proofs.«145151_j6665789243398_1_alg».proof.Proof.Gen.Kernel.Frame
import proofs.«145151_j6665789243398_1_alg».proof.Proof.Gen.KernelIdeal
import proofs.«145151_j6665789243398_1_alg».proof.Proof.Gen.KernelIdeal.Skeleton
import proofs.«145151_j6665789243398_1_alg».proof.Proof.Gen.KernelIdeal.Launch
import proofs.«145151_j6665789243398_1_alg».proof.Proof.Gen.KernelIdeal.Points
import proofs.«145151_j6665789243398_1_alg».proof.Proof.Gen.KernelIdeal.Frame
import proofs.«145151_j6665789243398_1_alg».proof.Proof.Gen.ReferenceIdeal
import proofs.«145151_j6665789243398_1_alg».proof.Proof.Gen.Pre_finite_inputs
import proofs.«145151_j6665789243398_1_alg».proof.Proof.Gen.KernelIdeal.Value
import proofs.«145151_j6665789243398_1_alg».proof.Proof.Gen.ReferenceIdeal.Run
import proofs.«145151_j6665789243398_1_alg».proof.Proof.Gen.ReferenceIdeal.Read
import proofs.«145151_j6665789243398_1_alg».proof.Proof.KernelArray
import proofs.«145151_j6665789243398_1_alg».proof.Proof.HostAgg
import proofs.«145151_j6665789243398_1_alg».proof.Proof.RefIsMlp
import Idealize.ShloMosaic.Adequacy
import Idealize.ShloMosaic.Init

noncomputable section

namespace Cert.Proof

open Idealize.ShloMosaic Idealize.ShloMosaic.TcCoe Idealize.SL.Sem Cert.Mlp

/-- The kernel's result array after the run, in the reference's terms: the perceptron of the node features, the
    reference's aggregate of the node features and the edge list, and the parameters, all as launched. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.whole m c
      = mlp (m ((c : Thread Cert.KernelIdeal.nD Cert.KernelIdeal.τ).loc Cert.KernelIdeal.main_arg0))
          (Cert.ReferenceIdeal.Read.val_main_v22 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg6)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  show mlp (Cert.KernelIdeal.Gen.V m c Cert.KernelIdeal.main_arg0) (Cert.KernelIdeal.Gen.V m c Cert.KernelIdeal.main_v22)
    (Cert.KernelIdeal.Gen.V m c Cert.KernelIdeal.main_arg2) (Cert.KernelIdeal.Gen.V m c Cert.KernelIdeal.main_arg3)
    (Cert.KernelIdeal.Gen.V m c Cert.KernelIdeal.main_arg4) (Cert.KernelIdeal.Gen.V m c Cert.KernelIdeal.main_arg5) = _
  rw [Cert.KernelIdeal.Gen.V_main_arg0 m c, Cert.KernelIdeal.Gen.V_main_arg2 m c, Cert.KernelIdeal.Gen.V_main_arg3 m c,
    Cert.KernelIdeal.Gen.V_main_arg4 m c, Cert.KernelIdeal.Gen.V_main_arg5 m c, Cert.KernelIdeal.HostAgg.agg_eq m c]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the perceptron of the same arrays in their first result, and with the edge features,
    unchanged, in their second. -/
theorem algebraic : Cert.algebraic_KernelIdeal_ReferenceIdeal := by
  intro m ρ m' ρ' _ hagree
  refine ⟨fun c => mlp (m ((c : Thread Cert.KernelIdeal.nD Cert.KernelIdeal.τ).loc Cert.KernelIdeal.main_arg0))
          (Cert.ReferenceIdeal.Read.val_main_v22 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg6)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)),
    fun c => m ((c : Thread Cert.KernelIdeal.nD Cert.KernelIdeal.τ).loc Cert.KernelIdeal.main_arg1), ?_, ?_⟩
  · exact (θ_run Cert.KernelIdeal.defs _ _).mono
      (fun _ h c => ⟨((h c).1.trans (Cert.KernelIdeal.Whole.final m c)).trans (kernel_result m c), (h c).2.2.1, (h c).2⟩)
      (Cert.KernelIdeal.Value.run_blocks (F := Ideal) m ρ)
  · refine (θ_run Cert.ReferenceIdeal.defs _ _).mono (fun _ h c => ⟨?_, ?_, (h c).2.2⟩)
      (Cert.ReferenceIdeal.Value.run (F := Ideal) m' ρ')
    · refine (h c).1.trans ?_
      rw [Cert.ReferenceIdeal.Read.val_main_v32_eq, Cert.ReferenceIdeal.RefValue.result_eq,
        (hagree c).1, (hagree c).2.2.1, (hagree c).2.2.2.1, (hagree c).2.2.2.2.1, (hagree c).2.2.2.2.2.1,
        (hagree c).2.2.2.2.2.2]
    · exact (h c).2.1.trans (hagree c).2.1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
